-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) (main_arg2 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S256x512 : Shape := ⟨2, ![256, 512]⟩
abbrev S256x1 : Shape := ⟨2, ![256, 1]⟩
abbrev S512x4096 : Shape := ⟨2, ![512, 4096]⟩
abbrev S256x4096 : Shape := ⟨2, ![256, 4096]⟩
abbrev S256 : Shape := ⟨1, ![256]⟩

abbrev nBuf : Space → Nat
  | .hbm => 21
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S4096x512, .bf16⟩
  | .hbm, ⟨13, _⟩ => ⟨S4096x512, .bf16⟩
  | .hbm, ⟨14, _⟩ => ⟨S4096x1, .i32⟩
  | .hbm, ⟨15, _⟩ => ⟨S1x4096, .i32⟩
  | .hbm, ⟨16, _⟩ => ⟨S4096x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S256x1, .f32⟩
  | .local _ .vmem, ⟨4, _⟩ => ⟨S256x1, .f32⟩
  | .local _ .vmem, ⟨5, _⟩ => ⟨S1x4096, .f32⟩
  | .local _ .vmem, ⟨6, _⟩ => ⟨S256x1, .i32⟩
  | .local _ .vmem, ⟨7, _⟩ => ⟨S256x1, .i32⟩
  | .local _ .vmem, ⟨8, _⟩ => ⟨S1x4096, .i32⟩
  | .local _ .vmem, ⟨9, _⟩ => ⟨S256x1, .f32⟩
  | .local _ .vmem, ⟨10, _⟩ => ⟨S256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bitsLt_bf16_f32 : FTy.bits .bf16 < FTy.bits .f32
  shapeCasts_S4096_S4096x1 : S4096.ShapeCasts S4096x1
  shapeCasts_S4096_S1x4096 : S4096.ShapeCasts S1x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  transposes_S4096x512_p1_0_S512x4096 : S4096x512.Transposes [1, 0] S512x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  reduces_S256x4096_S256 : S256x4096.Reduces [1] S256
  shapeCasts_S256_S256x1 : S256.ShapeCasts S256x1
  reducesTo_S4096x1_S_d0_1 : S4096x1.ReducesTo [0, 1] S_
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .bf16 = 32 ∨ (Rect.block (s := S4096x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .i32 = 32 ∨ (Rect.block (s := S4096x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v7) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S512x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_call2_cst : Ref sig .tc := ⟨.hbm, 45, rfl⟩
abbrev main_call2_v0 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Spec.lean ====
/-
  The batch-hard triplet loss, as one function of the three argument arrays.

  For feature matrices `x0`, `x1` of 4096 rows and 512 columns and a label vector `l` of 4096 integers:

  • `sqNorm x i` is the squared Euclidean norm of row `i`: the zero word plus the sum over `k` of `x (i, k)²`;
  • `dist x0 x1 i j` is the squared distance between row `i` of `x0` and row `j` of `x1`, written
    `‖a‖² + ‖b‖² − 2·⟨a, b⟩` and clamped below at zero;
  • `same l i j` is the one-bit word saying that rows `i` and `j` carry the same label;
  • `hardPos` is the largest distance from row `i` to a row of its own label (the columns of other labels count as −∞),
    `hardNeg` the smallest distance to a row of another label (the columns of its own label count as +∞);
  • `rowLoss` is the hinge `max (hardPos − hardNeg + margin) 0`, the margin the word of the float nearest 0.3;
  • `meanLoss` is the sum of the 4096 row losses, from the zero word, divided by 4096.

  Every float constant stays the word it is written as: the two programs carry the same words, so none is evaluated.
-/
import Idealize.ShloMosaic.Lib.ValueIdx
import Idealize.ShloMosaic.PureOps.Ideal.Laws

noncomputable section

namespace Cert.HardMining

open Idealize.ShloMosaic Idealize.ShloMosaic.ValueIdx

/-- A feature matrix: 4096 rows of 512 extended reals. -/
abbrev Feat : Type := (⟨2, ![4096, 512]⟩ : Shape).Idx → EReal
/-- A label vector: 4096 words of 32 bits. -/
abbrev Lab : Type := (⟨1, ![4096]⟩ : Shape).Idx → BitVec 32

/-- The words of the constants both programs carry. -/
abbrev zeroW : EReal := Ideal.ofBits .f32 0x00000000#32
abbrev twoW : EReal := Ideal.ofBits .f32 0x40000000#32
abbrev negInfW : EReal := Ideal.ofBits .f32 0xFF800000#32
abbrev posInfW : EReal := Ideal.ofBits .f32 0x7F800000#32
abbrev marginW : EReal := Ideal.ofBits .f32 0x3E99999A#32
abbrev countW : EReal := Ideal.ofBits .f32 0x45800000#32

/-- The squared norm of row `i`. -/
def sqNorm (x : Feat) (i : Fin 4096) : EReal := zeroW + ∑ k : Fin 512, x (ix2 i k) * x (ix2 i k)

/-- The inner product of row `i` of `x0` with row `j` of `x1`. -/
def inner (x0 x1 : Feat) (i j : Fin 4096) : EReal := ∑ k : Fin 512, x0 (ix2 i k) * x1 (ix2 j k)

/-- The squared distance between row `i` of `x0` and row `j` of `x1`, clamped below at zero. -/
def dist (x0 x1 : Feat) (i j : Fin 4096) : EReal :=
  max ((sqNorm x0 i + sqNorm x1 j) - twoW * inner x0 x1 i j) zeroW

/-- Rows `i` and `j` carry the same label. -/
def same (l : Lab) (i j : Fin 4096) : BitVec 1 := IntOp.cmpi .eq (l (ix1 i)) (l (ix1 j))

/-- The distance from row `i` to its farthest row of the same label. -/
def hardPos (x0 x1 : Feat) (l : Lab) (i : Fin 4096) : EReal :=
  (Finset.univ : Finset (Fin 4096)).fold max negInfW fun j => Scalar.select (same l i j) (dist x0 x1 i j) negInfW

/-- The distance from row `i` to its nearest row of another label. -/
def hardNeg (x0 x1 : Feat) (l : Lab) (i : Fin 4096) : EReal :=
  (Finset.univ : Finset (Fin 4096)).fold min posInfW fun j => Scalar.select (same l i j) posInfW (dist x0 x1 i j)

/-- The hinge loss of row `i`. -/
def rowLoss (x0 x1 : Feat) (l : Lab) (i : Fin 4096) : EReal :=
  max ((hardPos x0 x1 l i - hardNeg x0 x1 l i) + marginW) zeroW

/-- The mean of the row losses. -/
def meanLoss (x0 x1 : Feat) (l : Lab) : EReal :=
  Ideal.div (zeroW + ∑ i : Fin 4096, rowLoss x0 x1 l i) countW

end Cert.HardMining

end
-- ==== Proof.RefIsSpec.lean ====
/-
  The reference computes the mean batch-hard loss: its last stage, read one operation at a time, is `meanLoss` of the
  three argument arrays.
-/
import proofs.«115461_j86887188398250_1_alg».proof.Proof.Gen.ReferenceIdeal.Read
import proofs.«115461_j86887188398250_1_alg».proof.Proof.Spec
import Idealize.ShloMosaic.Lib.ValueIdxRank1

noncomputable section

namespace Cert.HardMining.Ref

open Idealize.ShloMosaic Idealize.ShloMosaic.ValueIdx Cert.ReferenceIdeal Cert.ReferenceIdeal.Gen Cert.ReferenceIdeal.Read

/-- The shape fact of the two row folds, in the form the inserted index is defined from. -/
theorem reduces_rows : S4096x4096.Reduces [1] S4096 := by decide

/-! ## Composed index functions are the coordinate constructors -/

theorem idx_v1 (i : Fin 4096) (k : Fin 512) : idx_main_v1 (ix1 i) k = ix2 i k :=
  funext fun a => Fin.ext (by match a with | ⟨0, _⟩ => rfl | ⟨1, _⟩ => rfl)

theorem idx_v4 (i : Fin 4096) (k : Fin 512) : idx_main_v4 (ix1 i) k = ix2 i k :=
  funext fun a => Fin.ext (by match a with | ⟨0, _⟩ => rfl | ⟨1, _⟩ => rfl)

theorem idx_v7 (i j : Fin 4096) : idx_main_v2 (idx_main_v7 (ix2 i j)) = ix1 i :=
  funext fun a => Fin.ext (by match a with | ⟨0, _⟩ => rfl)

theorem idx_v8 (i j : Fin 4096) : idx_main_v5 (idx_main_v6 (idx_main_v8 (ix2 i j))) = ix1 j :=
  funext fun a => Fin.ext (by match a with | ⟨0, _⟩ => rfl)

theorem lidx_v11 (i j : Fin 4096) (k : Fin 512) : lidx_main_v11 (ix2 i j) k = ix2 i k :=
  funext fun a => Fin.ext (by match a with | ⟨0, _⟩ => rfl | ⟨1, _⟩ => rfl)

theorem ridx_v11 (i j : Fin 4096) (k : Fin 512) : idx_main_v10 (ridx_main_v11 (ix2 i j) k) = ix2 j k :=
  funext fun a => Fin.ext (by match a with | ⟨0, _⟩ => rfl | ⟨1, _⟩ => rfl)

theorem idx_v19 (i j : Fin 4096) : idx_main_v17 (idx_main_v19 (ix2 i j)) = ix1 i :=
  funext fun a => Fin.ext (by match a with | ⟨0, _⟩ => rfl)

theorem idx_v20 (i j : Fin 4096) : idx_main_v18 (idx_main_v20 (ix2 i j)) = ix1 j :=
  funext fun a => Fin.ext (by match a with | ⟨0, _⟩ => rfl)

/-- The index a row fold reads at coordinate j of row i is (i, j). -/
theorem lift_rows (i j : Fin 4096) : reduces_rows.lift (ix1 i) j = ix2 i j :=
  funext fun a => Fin.ext (by match a with | ⟨0, _⟩ => rfl | ⟨1, _⟩ => rfl)

/-! ## One lemma per function of the specification -/

/-- The first row sum is the squared norm of a row of the first matrix. -/
theorem v1_eq (x0 : (⟨S4096x512, .f32⟩ : BufTy).Contents (Elt Ideal)) (i : Fin 4096) :
    val_main_v1 (F := Ideal) x0 (ix1 i) = sqNorm x0 i := by
  rw [val_main_v1_apply]
  unfold sqNorm
  refine congrArg (_ + ·) (Finset.sum_congr rfl fun k _ => ?_)
  rw [val_main_v0_apply, idx_v1]; rfl

/-- The second row sum is the squared norm of a row of the second matrix. -/
theorem v4_eq (x1 : (⟨S4096x512, .f32⟩ : BufTy).Contents (Elt Ideal)) (i : Fin 4096) :
    val_main_v4 (F := Ideal) x1 (ix1 i) = sqNorm x1 i := by
  rw [val_main_v4_apply]
  unfold sqNorm
  refine congrArg (_ + ·) (Finset.sum_congr rfl fun k _ => ?_)
  rw [val_main_v3_apply, idx_v4]; rfl

/-- The contraction is the inner product of row i of the first matrix with row j of the second. -/
theorem v11_eq (x0 x1 : (⟨S4096x512, .f32⟩ : BufTy).Contents (Elt Ideal)) (i j : Fin 4096) :
    val_main_v11 (F := Ideal) x0 x1 (ix2 i j) = inner x0 x1 i j := by
  rw [val_main_v11_apply]
  unfold inner
  refine Finset.sum_congr rfl fun k _ => ?_
  rw [val_main_v10_apply, lidx_v11, ridx_v11]

/-- The clamped difference is the squared distance. -/
theorem v16_eq (x0 x1 : (⟨S4096x512, .f32⟩ : BufTy).Contents (Elt Ideal)) (i j : Fin 4096) :
    val_main_v16 (F := Ideal) x0 x1 (ix2 i j) = dist x0 x1 i j := by
  rw [val_main_v16_apply, val_main_v14_apply, val_main_v9_apply, val_main_v7_apply, val_main_v2_apply, idx_v7,
    val_main_v8_apply, val_main_v6_apply, val_main_v5_apply, idx_v8, val_main_v13_apply, val_main_v12_apply,
    val_main_cst_1_apply, val_main_v15_apply, val_main_cst_2_apply, v1_eq, v4_eq, v11_eq]
  rfl

/-- The comparison of the two broadcast label arrays is the same-label bit. -/
theorem v21_eq (x2 : (⟨S4096, .i32⟩ : BufTy).Contents (Elt Ideal)) (i j : Fin 4096) :
    val_main_v21 (F := Ideal) x2 (ix2 i j) = same x2 i j := by
  rw [val_main_v21_apply, val_main_v19_apply, val_main_v17_apply, idx_v19, val_main_v20_apply, val_main_v18_apply,
    idx_v20]
  rfl

/-- The masked distances the row maximum runs over: other labels count as minus infinity. -/
theorem v22_eq (x0 x1 : (⟨S4096x512, .f32⟩ : BufTy).Contents (Elt Ideal)) (x2 : (⟨S4096, .i32⟩ : BufTy).Contents (Elt Ideal))
    (i j : Fin 4096) :
    val_main_v22 (F := Ideal) x0 x1 x2 (ix2 i j) = Scalar.select (same x2 i j) (dist x0 x1 i j) negInfW := by
  rw [val_main_v22_apply, v21_eq, v16_eq, val_main_call0_v1_apply, val_main_call0_v0_apply, val_main_cst_3_apply]
  rfl

/-- The masked distances the row minimum runs over: the own label counts as plus infinity. -/
theorem v24_eq (x0 x1 : (⟨S4096x512, .f32⟩ : BufTy).Contents (Elt Ideal)) (x2 : (⟨S4096, .i32⟩ : BufTy).Contents (Elt Ideal))
    (i j : Fin 4096) :
    val_main_v24 (F := Ideal) x0 x1 x2 (ix2 i j) = Scalar.select (same x2 i j) posInfW (dist x0 x1 i j) := by
  rw [val_main_v24_apply, v21_eq, v16_eq, val_main_call1_v1_apply, val_main_call1_v0_apply, val_main_cst_5_apply]
  rfl

/-- The row maximum is the hardest positive: a fold of max over the columns of the row, from minus infinity. -/
theorem v23_eq (x0 x1 : (⟨S4096x512, .f32⟩ : BufTy).Contents (Elt Ideal)) (x2 : (⟨S4096, .i32⟩ : BufTy).Contents (Elt Ideal))
    (i : Fin 4096) :
    val_main_v23 (F := Ideal) x0 x1 x2 (ix1 i) = hardPos x0 x1 x2 i := by
  unfold val_main_v23
  rw [Host.reduce_eq_fold_single FloatOps.maximumf _ _ reducesTo_S4096x4096_S4096_d1 reduces_rows h_S_ (ix1 i),
    val_main_cst_4_apply]
  unfold hardPos
  refine Finset.fold_congr fun (j : Fin 4096) _ => ?_
  exact (congrArg (val_main_v22 (F := Ideal) x0 x1 x2) (lift_rows i j)).trans (v22_eq x0 x1 x2 i j)

/-- The row minimum is the hardest negative: a fold of min over the columns of the row, from plus infinity. -/
theorem v25_eq (x0 x1 : (⟨S4096x512, .f32⟩ : BufTy).Contents (Elt Ideal)) (x2 : (⟨S4096, .i32⟩ : BufTy).Contents (Elt Ideal))
    (i : Fin 4096) :
    val_main_v25 (F := Ideal) x0 x1 x2 (ix1 i) = hardNeg x0 x1 x2 i := by
  unfold val_main_v25
  rw [Host.reduce_eq_fold_single FloatOps.minimumf _ _ reducesTo_S4096x4096_S4096_d1 reduces_rows h_S_ (ix1 i),
    val_main_cst_6_apply]
  unfold hardNeg
  refine Finset.fold_congr fun (j : Fin 4096) _ => ?_
  exact (congrArg (val_main_v24 (F := Ideal) x0 x1 x2) (lift_rows i j)).trans (v24_eq x0 x1 x2 i j)

/-- The clamped, shifted difference of the two is the hinge loss of the row. -/
theorem v29_eq (x0 x1 : (⟨S4096x512, .f32⟩ : BufTy).Contents (Elt Ideal)) (x2 : (⟨S4096, .i32⟩ : BufTy).Contents (Elt Ideal))
    (i : Fin 4096) :
    val_main_v29 (F := Ideal) x0 x1 x2 (ix1 i) = rowLoss x0 x1 x2 i := by
  rw [val_main_v29_apply, val_main_v28_apply, val_main_v26_apply, v23_eq, v25_eq, val_main_v27_apply,
    val_main_cst_7_apply, val_main_call2_v0_apply, val_main_call2_cst_apply]
  rfl

/-- The reference's result, as a function of its three arguments, is the mean loss at its one index. -/
theorem val_eq_meanLoss (x0 x1 : (⟨S4096x512, .f32⟩ : BufTy).Contents (Elt Ideal)) (x2 : (⟨S4096, .i32⟩ : BufTy).Contents (Elt Ideal)) :
    val_main_v31 (F := Ideal) x0 x1 x2 = fun _ => meanLoss x0 x1 x2 := by
  funext i
  -- the sum over the rank-1 index set, re-indexed by the row number
  have hs : ∑ j : S4096.Idx, val_main_v29 (F := Ideal) x0 x1 x2 j = ∑ a : Fin 4096, rowLoss x0 x1 x2 a :=
    Fintype.sum_equiv idxEquiv1 _ _ fun j =>
      (congrArg (val_main_v29 (F := Ideal) x0 x1 x2) (eq_ix1 j)).trans (v29_eq x0 x1 x2 (j 0))
  rw [val_main_v31_apply, val_main_v30_apply, val_main_cst_8_apply, val_main_cst_9_apply, hs]
  rfl

end Cert.HardMining.Ref

end
-- ==== Proof.Entry.lean ====
/-
  What the kernel region finds in its six input arrays: the host operations before it, read at coordinates.

  • the two feature matrices, narrowed to the 16-bit format (no change of value over the extended reals);
  • the column of squared row norms of the first matrix, and the row of squared row norms of the second;
  • the label vector as a column and as a row.
-/
import proofs.«115461_j86887188398250_1_alg».proof.Proof.Gen.KernelIdeal.Frame
import proofs.«115461_j86887188398250_1_alg».proof.Proof.Spec
import Idealize.ShloMosaic.Lib.StableHlo.Run
import Idealize.ShloMosaic.Lib.ValueLayout
import Idealize.ShloMosaic.Lib.Pipeline.Value

noncomputable section

namespace Cert.HardMining.Entry

open Idealize.ShloMosaic Idealize.ShloMosaic.TcCoe Idealize.ShloMosaic.ValueIdx Idealize.SL.Sem
open Cert.KernelIdeal Cert.KernelIdeal.Gen Idealize.ShloMosaic.StableHlo

/-! ## The norms, over any matrix -/

/-- A row's squared norm as the host computes it: the products summed along the row from the zero word. -/
theorem rowNorms_apply (x : FVec Ideal S4096x512 .f32) (i : Fin 4096) :
    Host.reduceAdd (mulf x x) (constant (F := Ideal) S_ .f32 0x00000000#32) reducesTo_S4096x512_S4096_d1 h_S_ (ix1 i) = sqNorm x i := by
  simp only [Host.reduceAdd, Ideal.hostReduceAdd_def]
  rw [Ideal.hostReduceAdd_single reducesTo_S4096x512_S4096_d1 (by decide)]
  unfold sqNorm
  refine congrArg (_ + ·) (Finset.sum_congr rfl fun k _ => ?_)
  have e : (by decide : S4096x512.Reduces [1] S4096).lift (ix1 i) k = ix2 i k :=
    funext fun a => Fin.ext (by match a with | ⟨0, _⟩ => rfl | ⟨1, _⟩ => rfl)
  rw [e]
  rfl

/-- The norms kept as a column: entry `(i, u)` is row `i`'s. -/
theorem normColumn_apply (x : FVec Ideal S4096x512 .f32) (i : Fin 4096) (u : Fin 1) :
    broadcastInDim S4096x1 ![0] bcast_S4096_S4096x1_0
      (Host.reduceAdd (mulf x x) (constant (F := Ideal) S_ .f32 0x00000000#32) reducesTo_S4096x512_S4096_d1 h_S_) (ix2 i u) = sqNorm x i :=
  (broadcastInDim_apply _ bcast_S4096_S4096x1_0 _ (ix2 i u) (ix1 i) (fun a => match a with
    | ⟨0, _⟩ => by show i.val = if (4096 : Nat) = 1 then 0 else i.val; rw [if_neg (by decide)])).trans (rowNorms_apply x i)

/-- The column laid down as a row: entry `(u, j)` is row `j`'s. -/
theorem normRow_apply (x : FVec Ideal S4096x512 .f32) (u : Fin 1) (j : Fin 4096) :
    transpose S1x4096 [1, 0] (broadcastInDim S4096x1 ![0] bcast_S4096_S4096x1_0
      (Host.reduceAdd (mulf x x) (constant (F := Ideal) S_ .f32 0x00000000#32) reducesTo_S4096x512_S4096_d1 h_S_)) transposes_S4096x1_S1x4096_1_0 (ix2 u j)
      = sqNorm x j :=
  (transpose_ix2_apply _ transposes_S4096x1_S1x4096_1_0 u j).trans (normColumn_apply x j u)

/-! ## The six arrays as the region finds them -/

variable (m : (ℓ : Loc nD τ sig) → Buf (Elt Ideal) ℓ)

/-- The first feature matrix, as launched. -/
abbrev src (c : Dev nD) : Feat := m ((c : Thread nD τ).loc main_arg0)
/-- The second feature matrix, as launched. -/
abbrev tgt (c : Dev nD) : Feat := m ((c : Thread nD τ).loc main_arg1)
/-- The labels, as launched. -/
abbrev lab (c : Dev nD) : Lab := m ((c : Thread nD τ).loc main_arg2)

theorem srcNarrow_eq (c : Dev nD) : V m c main_v7 = (truncf .bf16 (src m c) bitsLt_bf16_f32 : FVec Ideal S4096x512 .bf16) := by
  show StableHlo.after hostOps0 (fun b => m (c, b)) (Proc.devRef .tc main_v7) = _
  after_results

theorem tgtNarrow_eq (c : Dev nD) : V m c main_v8 = (truncf .bf16 (tgt m c) bitsLt_bf16_f32 : FVec Ideal S4096x512 .bf16) := by
  show StableHlo.after hostOps0 (fun b => m (c, b)) (Proc.devRef .tc main_v8) = _
  after_results

theorem srcNorms_eq (c : Dev nD) : V m c main_v2 = (broadcastInDim S4096x1 ![0] bcast_S4096_S4096x1_0
      (Host.reduceAdd (mulf (src m c) (src m c)) (constant (F := Ideal) S_ .f32 0x00000000#32) reducesTo_S4096x512_S4096_d1 h_S_) : FVec Ideal S4096x1 .f32) := by
  show StableHlo.after hostOps0 (fun b => m (c, b)) (Proc.devRef .tc main_v2) = _
  after_results

theorem tgtNorms_eq (c : Dev nD) : V m c main_v6 = (transpose S1x4096 [1, 0] (broadcastInDim S4096x1 ![0] bcast_S4096_S4096x1_0
      (Host.reduceAdd (mulf (tgt m c) (tgt m c)) (constant (F := Ideal) S_ .f32 0x00000000#32) reducesTo_S4096x512_S4096_d1 h_S_)) transposes_S4096x1_S1x4096_1_0 : FVec Ideal S1x4096 .f32) := by
  show StableHlo.after hostOps0 (fun b => m (c, b)) (Proc.devRef .tc main_v6) = _
  after_results

theorem labColumn_eq (c : Dev nD) : V m c main_v9 = (shapeCast S4096x1 (lab m c) shapeCasts_S4096_S4096x1 : IVec S4096x1 32) := by
  show StableHlo.after hostOps0 (fun b => m (c, b)) (Proc.devRef .tc main_v9) = _
  after_results
  rfl

theorem labRow_eq (c : Dev nD) : V m c main_v10 = (shapeCast S1x4096 (lab m c) shapeCasts_S4096_S1x4096 : IVec S1x4096 32) := by
  show StableHlo.after hostOps0 (fun b => m (c, b)) (Proc.devRef .tc main_v10) = _
  after_results
  rfl

end Cert.HardMining.Entry

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.LibMinReduce.lean ====
/-
  A float minimum reduction over one axis, read over the extended reals: at a result index it is the fold of `min`, from
  the accumulator's value, over the coordinates of the reduced axis — in any order, since `min` commutes and associates.
  The twin of the library's reading of a maximum reduction.
-/
import Idealize.ShloMosaic.PureOps.Ideal.Laws

namespace Cert.MinReduce

open Idealize.ShloMosaic

/-- A float minimum reduction over ONE axis, at the extended reals: the fold of `min` from the accumulator's value over that
    axis's coordinates (`h.lift j k` is the result index `j` with coordinate `k` inserted on the reduced axis). -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.MinReduce
-- ==== Proof.TileRow.lean ====
/-
  One tile of the kernel: 256 rows of the first matrix against all 4096 rows of the second. Read at a row `p` of the
  tile, the body's one stored value is the hinge of that row, over the tile's six loaded blocks.
-/
import proofs.«115461_j86887188398250_1_alg».proof.Proof.Gen.KernelIdeal.Skeleton
import proofs.«115461_j86887188398250_1_alg».proof.Proof.Spec
import proofs.«115461_j86887188398250_1_alg».proof.Proof.LibKeepdims
import proofs.«115461_j86887188398250_1_alg».proof.Proof.LibMinReduce
import Idealize.ShloMosaic.Lib.ValueLayout

noncomputable section

namespace Cert.HardMining.Tile

open Idealize.ShloMosaic Idealize.ShloMosaic.ValueIdx Cert.KernelIdeal Cert.KernelIdeal.Gen

/-- The clamped squared distance between row `p` of the tile and row `j` of the second matrix, from the tile's blocks:
    the two norms come loaded, the inner product is the sum over the 512 columns. -/
def tileDist (b0 : Vec Ideal S256x512 .bf16) (b1 : Vec Ideal S4096x512 .bf16) (b2 : Vec Ideal S256x1 .f32) (b3 : Vec Ideal S1x4096 .f32)
    (p : Fin 256) (j : Fin 4096) : EReal :=
  max ((b2 (ix2 p (0 : Fin 1)) + b3 (ix2 (0 : Fin 1) j)) - twoW * ∑ k : Fin 512, b0 (ix2 p k) * b1 (ix2 j k)) zeroW

/-- Row `p` of the tile and row `j` carry the same label, from the two loaded label blocks. -/
def tileSame (b4 : Vec Ideal S256x1 .i32) (b5 : Vec Ideal S1x4096 .i32) (p : Fin 256) (j : Fin 4096) : BitVec 1 :=
  IntOp.cmpi .eq (b4 (ix2 p (0 : Fin 1))) (b5 (ix2 (0 : Fin 1) j))

/-! ### The matrix product at an index

The contraction runs over the one shared axis of 512 columns; its index is re-read as a `Fin 512`, and the two operand
indices are then the pairs `(p, k)` and `(k, j)`. -/

theorem lhs_tile_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem lhs_tile_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem rhs_tile_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem rhs_tile_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- The product of the tile's rows with the transposed second matrix, into the zero accumulator, reads at `(p, j)` the
    inner product of row `p` of the first block with row `j` of the second. -/
theorem prod_apply (v0 : FVec Ideal S256x512 .bf16) (v2 : FVec Ideal S4096x512 .bf16)
    (h0 : S256x512.ShapeCasts S256x512) (h2 : S4096x512.ShapeCasts S4096x512) (ht : S4096x512.Transposes [1, 0] S512x4096)
    (p : Fin 256) (j : Fin 4096) :
    matmul dot_S256x512_S512x4096_S256x4096_1_0_0_1_n_n none (shapeCast S256x512 v0 h0) (transpose S512x4096 [1, 0] (shapeCast S4096x512 v2 h2) ht)
        (constant (F := Ideal) S256x4096 .f32 0x00000000#32) (ix2 p j)
      = ∑ k : Fin 512, v0 (ix2 p k) * v2 (ix2 j k) := by
  rw [shapeCast_self, shapeCast_self]
  refine (Ideal.matmul_constant_zero_apply dot_S256x512_S512x4096_S256x4096_1_0_0_1_n_n none v0 _ (ix2 p j)).trans ?_
  rw [← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 p j) ((contrEquiv1 dot_S256x512_S512x4096_S256x4096_1_0_0_1_n_n 512 rfl rfl).symm k) = ix2 p k := funext fun a => Fin.ext (by
    match a with
    | ⟨0, _⟩ => exact lhs_tile_0 _ _
    | ⟨1, _⟩ => exact (lhs_tile_1 _ _).trans hk)
  have er : dot_S256x512_S512x4096_S256x4096_1_0_0_1_n_n.rhsIdx (ix2 p j) ((contrEquiv1 dot_S256x512_S512x4096_S256x4096_1_0_0_1_n_n 512 rfl rfl).symm k) = ix2 k j := funext fun a => Fin.ext (by
    match a with
    | ⟨0, _⟩ => exact (rhs_tile_0 _ _).trans hk
    | ⟨1, _⟩ => exact rhs_tile_1 _ _)
  rw [el, er, transpose_ix2_apply]

/-! ### The two row reductions

A maximum (a minimum) along the second axis, kept as a trailing unit axis, reads at row `p` the fold of `max` (`min`) from
the accumulator's value over the row's 4096 entries. -/

/-- The row maximum, kept as a column, at `(p, u)`. -/
theorem rowMax_apply (src : FVec Ideal S256x4096 .f32) (h : S256x4096.Reduces [1] S256) (hφ : FKind.Formats FTy.f32)
    (hacc : (0xFF800000#32 : BitVec 32) = FKind.maximumf.neutral .f32 hφ) (hc : S256.ShapeCasts S256x1) (p : Fin 256) (u : Fin 1) :
    shapeCast S256x1 (multiReduction (F := Ideal) .maximumf [1] S256 src 0xFF800000#32 h hφ hacc) hc (ix2 p u)
      = (Finset.univ : Finset (Fin 4096)).fold max negInfW fun j => src (ix2 p j) := by
  refine (Cert.Keepdims.shapeCast_a_a1_apply _ hc p u).trans ?_
  refine (Ideal.multiReduction_maximumf_single src _ h hφ hacc (ix1 p)).trans ?_
  exact congrArg (fun f => (Finset.univ : Finset (Fin 4096)).fold max negInfW f)
    (funext fun j => congrArg src (funext fun a => Fin.ext (by
      match a with
      | ⟨0, _⟩ => rfl
      | ⟨1, _⟩ => rfl)))

/-- The row minimum, kept as a column, at `(p, u)`. -/
theorem rowMin_apply (src : FVec Ideal S256x4096 .f32) (h : S256x4096.Reduces [1] S256) (hφ : FKind.Formats FTy.f32)
    (hacc : (0x7F800000#32 : BitVec 32) = FKind.minimumf.neutral .f32 hφ) (hc : S256.ShapeCasts S256x1) (p : Fin 256) (u : Fin 1) :
    shapeCast S256x1 (multiReduction (F := Ideal) .minimumf [1] S256 src 0x7F800000#32 h hφ hacc) hc (ix2 p u)
      = (Finset.univ : Finset (Fin 4096)).fold min posInfW fun j => src (ix2 p j) := by
  refine (Cert.Keepdims.shapeCast_a_a1_apply _ hc p u).trans ?_
  refine (Cert.MinReduce.multiReduction_minimumf_single src _ h hφ hacc (ix1 p)).trans ?_
  exact congrArg (fun f => (Finset.univ : Finset (Fin 4096)).fold min posInfW f)
    (funext fun j => congrArg src (funext fun a => Fin.ext (by
      match a with
      | ⟨0, _⟩ => rfl
      | ⟨1, _⟩ => rfl)))

/-! ### The distance and the label test at an index -/

/-- The body's clamped distance matrix reads, at `(p, j)`, the clamped squared distance of the two rows. -/
theorem dist_apply (v0 : FVec Ideal S256x512 .bf16) (v2 : FVec Ideal S4096x512 .bf16) (v6 : FVec Ideal S256x1 .f32) (v8 : FVec Ideal S1x4096 .f32)
    (h0 : S256x512.ShapeCasts S256x512) (h2 : S4096x512.ShapeCasts S4096x512) (ht : S4096x512.Transposes [1, 0] S512x4096)
    (h6 : S256x1.ShapeCasts S256x1) (h8 : S1x4096.ShapeCasts S1x4096) (hb6 : S256x1.Broadcasts S256x4096) (hb8 : S1x4096.Broadcasts S256x4096)
    (p : Fin 256) (j : Fin 4096) :
    maximumf
        (subf (addf (broadcastTo S256x4096 (shapeCast S256x1 v6 h6) hb6) (broadcastTo S256x4096 (shapeCast S1x4096 v8 h8) hb8))
          (mulf (broadcast S256x4096 (FloatOps.ofBits (F := Ideal) .f32 0x40000000#32))
            (matmul dot_S256x512_S512x4096_S256x4096_1_0_0_1_n_n none (shapeCast S256x512 v0 h0) (transpose S512x4096 [1, 0] (shapeCast S4096x512 v2 h2) ht)
              (constant (F := Ideal) S256x4096 .f32 0x00000000#32))))
        (broadcast S256x4096 (FloatOps.ofBits (F := Ideal) .f32 0x00000000#32)) (ix2 p j)
      = tileDist v0 v2 v6 v8 p j := by
  unfold tileDist
  show max ((broadcastTo S256x4096 (shapeCast S256x1 v6 h6) hb6 (ix2 p j) + broadcastTo S256x4096 (shapeCast S1x4096 v8 h8) hb8 (ix2 p j))
      - twoW * matmul dot_S256x512_S512x4096_S256x4096_1_0_0_1_n_n none (shapeCast S256x512 v0 h0) (transpose S512x4096 [1, 0] (shapeCast S4096x512 v2 h2) ht)
          (constant (F := Ideal) S256x4096 .f32 0x00000000#32) (ix2 p j)) zeroW = _
  rw [prod_apply, Cert.Keepdims.broadcastTo_a1_ab_apply, broadcastTo_1b_ab_apply, shapeCast_self, shapeCast_self]

/-- The body's label comparison reads, at `(p, j)`, the test that the two rows carry one label. -/
theorem same_apply (v18 : IVec S256x1 32) (v20 : IVec S1x4096 32)
    (h18 : S256x1.ShapeCasts S256x1) (h20 : S1x4096.ShapeCasts S1x4096) (hb18 : S256x1.Broadcasts S256x4096) (hb20 : S1x4096.Broadcasts S256x4096)
    (p : Fin 256) (j : Fin 4096) :
    cmpi .eq (broadcastTo S256x4096 (shapeCast S256x1 v18 h18) hb18) (broadcastTo S256x4096 (shapeCast S1x4096 v20 h20) hb20) (ix2 p j)
      = tileSame v18 v20 p j := by
  unfold tileSame
  show IntOp.cmpi .eq (broadcastTo S256x4096 (shapeCast S256x1 v18 h18) hb18 (ix2 p j))
      (broadcastTo S256x4096 (shapeCast S1x4096 v20 h20) hb20 (ix2 p j)) = _
  rw [Cert.Keepdims.broadcastTo_a1_ab_apply, broadcastTo_1b_ab_apply, shapeCast_self, shapeCast_self]

/-! ### The two masked reductions of a row

For any label-test matrix `c` and distance matrix `d`, read along row `p` as `s` and `t`. -/

/-- The maximum over the columns the test keeps (the others count as −∞), kept as a column, at `(p, u)`. -/
theorem maskedMax_apply (c : IVec S256x4096 1) (d : FVec Ideal S256x4096 .f32) (h : S256x4096.Reduces [1] S256) (hφ : FKind.Formats FTy.f32)
    (hmax : (0xFF800000#32 : BitVec 32) = FKind.maximumf.neutral .f32 hφ) (hc : S256.ShapeCasts S256x1) (p : Fin 256) (u : Fin 1)
    (s : Fin 4096 → BitVec 1) (t : Fin 4096 → EReal) (hs : ∀ j, c (ix2 p j) = s j) (ht : ∀ j, d (ix2 p j) = t j) :
    shapeCast S256x1
        (multiReduction (F := Ideal) .maximumf [1] S256
          (select c d (broadcast S256x4096 (FloatOps.ofBits (F := Ideal) .f32 0xFF800000#32))) 0xFF800000#32 h hφ hmax) hc (ix2 p u)
      = (Finset.univ : Finset (Fin 4096)).fold max negInfW (fun j => Scalar.select (s j) (t j) negInfW) := by
  refine (rowMax_apply _ h hφ hmax hc p u).trans ?_
  refine congrArg (fun f => (Finset.univ : Finset (Fin 4096)).fold max negInfW f) (funext fun j => ?_)
  exact congrArg₂ (fun a b => Scalar.select a b negInfW) (hs j) (ht j)

/-- The minimum over the columns the test drops (the others count as +∞), kept as a column, at `(p, u)`. -/
theorem maskedMin_apply (c : IVec S256x4096 1) (d : FVec Ideal S256x4096 .f32) (h : S256x4096.Reduces [1] S256) (hφ : FKind.Formats FTy.f32)
    (hmin : (0x7F800000#32 : BitVec 32) = FKind.minimumf.neutral .f32 hφ) (hc : S256.ShapeCasts S256x1) (p : Fin 256) (u : Fin 1)
    (s : Fin 4096 → BitVec 1) (t : Fin 4096 → EReal) (hs : ∀ j, c (ix2 p j) = s j) (ht : ∀ j, d (ix2 p j) = t j) :
    shapeCast S256x1
        (multiReduction (F := Ideal) .minimumf [1] S256
          (select c (broadcast S256x4096 (FloatOps.ofBits (F := Ideal) .f32 0x7F800000#32)) d) 0x7F800000#32 h hφ hmin) hc (ix2 p u)
      = (Finset.univ : Finset (Fin 4096)).fold min posInfW (fun j => Scalar.select (s j) posInfW (t j)) := by
  refine (rowMin_apply _ h hφ hmin hc p u).trans ?_
  refine congrArg (fun f => (Finset.univ : Finset (Fin 4096)).fold min posInfW f) (funext fun j => ?_)
  exact congrArg₂ (fun a b => Scalar.select a posInfW b) (hs j) (ht j)

/-! ### The hinge of a row -/

/-- The two masked reductions, their difference plus the margin, clamped below at zero, read at `(p, u)` the hinge of row `p`. -/
theorem hinge_apply (c : IVec S256x4096 1) (d : FVec Ideal S256x4096 .f32) (h : S256x4096.Reduces [1] S256) (hφ : FKind.Formats FTy.f32)
    (hmax : (0xFF800000#32 : BitVec 32) = FKind.maximumf.neutral .f32 hφ) (hmin : (0x7F800000#32 : BitVec 32) = FKind.minimumf.neutral .f32 hφ)
    (hc : S256.ShapeCasts S256x1) (p : Fin 256) (u : Fin 1) (s : Fin 4096 → BitVec 1) (t : Fin 4096 → EReal)
    (hs : ∀ j, c (ix2 p j) = s j) (ht : ∀ j, d (ix2 p j) = t j) :
    maximumf
        (addf
          (subf
            (shapeCast S256x1
              (multiReduction (F := Ideal) .maximumf [1] S256
                (select c d (broadcast S256x4096 (FloatOps.ofBits (F := Ideal) .f32 0xFF800000#32))) 0xFF800000#32 h hφ hmax) hc)
            (shapeCast S256x1
              (multiReduction (F := Ideal) .minimumf [1] S256
                (select c (broadcast S256x4096 (FloatOps.ofBits (F := Ideal) .f32 0x7F800000#32)) d) 0x7F800000#32 h hφ hmin) hc))
          (broadcast S256x1 (FloatOps.ofBits (F := Ideal) .f32 0x3E99999A#32)))
        (broadcast S256x1 (FloatOps.ofBits (F := Ideal) .f32 0x00000000#32)) (ix2 p u)
      = max (((Finset.univ : Finset (Fin 4096)).fold max negInfW (fun j => Scalar.select (s j) (t j) negInfW)
            - (Finset.univ : Finset (Fin 4096)).fold min posInfW (fun j => Scalar.select (s j) posInfW (t j)))
          + marginW) zeroW := by
  refine (maximumf_apply _ _ (ix2 p u)).trans ?_
  refine congrArg (fun x : EReal => max x zeroW) ?_
  refine (addf_apply _ _ (ix2 p u)).trans ?_
  refine congrArg (fun x : EReal => x + marginW) ?_
  refine (subf_apply _ _ (ix2 p u)).trans ?_
  exact congrArg₂ (fun x y : EReal => x - y)
    (maskedMax_apply c d h hφ hmax hc p u s t hs ht) (maskedMin_apply c d h hφ hmin hc p u s t hs ht)

/-- The body's stored value at row `p`: the hinge of the row's hardest positive against its hardest negative. -/
theorem pay_row (b0 : Vec Ideal S256x512 .bf16) (b1 : Vec Ideal S4096x512 .bf16) (b2 : Vec Ideal S256x1 .f32) (b3 : Vec Ideal S1x4096 .f32)
    (b4 : Vec Ideal S256x1 .i32) (b5 : Vec Ideal S1x4096 .i32) (p : Fin 256) (u : Fin 1) :
    k0_pay1 (F := Ideal) b0 b1 b2 b3 b4 b5 (ix2 p u)
      = max (((Finset.univ : Finset (Fin 4096)).fold max negInfW (fun j => Scalar.select (tileSame b4 b5 p j) (tileDist b0 b1 b2 b3 p j) negInfW)
            - (Finset.univ : Finset (Fin 4096)).fold min posInfW (fun j => Scalar.select (tileSame b4 b5 p j) posInfW (tileDist b0 b1 b2 b3 p j)))
          + marginW) zeroW := by
  unfold k0_pay1
  exact hinge_apply _ _ _ _ _ _ _ p u _ _
    (fun j => same_apply b4 b5 _ _ _ _ p j)
    (fun j => dist_apply b0 b1 b2 b3 _ _ _ _ _ _ _ p j)

end Cert.HardMining.Tile

end
-- ==== Proof.Blocks.lean ====
/-
  From tiles to the whole column of row losses.

  Grid point `t` (of 16) works on rows `256·t … 256·t + 255` of the first matrix against every row of the second. Its six
  blocks are restrictions of the arrays the region finds: the row blocks start at row `256·t`, the others are whole. So
  row `p` of the tile is row `256·t + p` of the problem, the tile's distances and label tests are the problem's, and what
  the point writes back is block `t` of the column `i ↦ rowLoss i`. The 16 blocks tile the 4096 rows, so after the run
  the output array is that column.
-/
import proofs.«115461_j86887188398250_1_alg».proof.Proof.Entry
import proofs.«115461_j86887188398250_1_alg».proof.Proof.TileRow

set_option maxRecDepth 16384

noncomputable section

namespace Cert.HardMining.Blocks

open Idealize.ShloMosaic Idealize.ShloMosaic.TcCoe Idealize.ShloMosaic.ValueIdx Idealize.SL.Sem
open Cert.KernelIdeal Cert.KernelIdeal.Gen Cert.HardMining.Entry Cert.HardMining.Tile
open Idealize.ShloMosaic.Pipeline (Dat)

variable (m : (ℓ : Loc nD τ sig) → Buf (Elt Ideal) ℓ)

/-! ## The grid's index maps -/

/-- The row windows (0, 2, 4 and the output 6) sit at block row `t`; the resident windows (1, 3, 5) at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 16 := lt_of_lt_of_eq t.isLt N_0

/-- The row of the problem that row `p` of tile `t` is. -/
def row (t : Fin cfg0.N) (p : Fin 256) : Fin 4096 :=
  ⟨t.val * 256 + p.val, by have := point_lt t; have := p.isLt; omega⟩

/-! ## The six blocks at a point, at their literal types -/

abbrev srcBlk (c : Dev nD) (t : Fin cfg0.N) : Vec Ideal S256x512 .bf16 := iblk m c 0 t
abbrev tgtBlk (c : Dev nD) (t : Fin cfg0.N) : Vec Ideal S4096x512 .bf16 := iblk m c 1 t
abbrev srcNormBlk (c : Dev nD) (t : Fin cfg0.N) : Vec Ideal S256x1 .f32 := iblk m c 2 t
abbrev tgtNormBlk (c : Dev nD) (t : Fin cfg0.N) : Vec Ideal S1x4096 .f32 := iblk m c 3 t
abbrev labColBlk (c : Dev nD) (t : Fin cfg0.N) : Vec Ideal S256x1 .i32 := iblk m c 4 t
abbrev labRowBlk (c : Dev nD) (t : Fin cfg0.N) : Vec Ideal S1x4096 .i32 := iblk m c 5 t

/-- The tile's rows of the first matrix are rows `256·t + p` of it. -/
theorem srcBlk_apply (c : Dev nD) (t : Fin cfg0.N) (p : Fin 256) (k : Fin 512) :
    srcBlk m c t (ix2 p k) = src m c (ix2 (row t p) k) := by
  show V m c main_v7 (((cfg0.win 0).blk t).view.emb (ix2 p k)) = _
  rw [srcNarrow_eq]
  show src m c (((cfg0.win 0).blk t).view.emb (ix2 p k)) = _
  obtain ⟨e0, e1, -⟩ := idx_facts t
  refine congrArg (src m c) (funext fun a => Fin.ext ?_)
  match a with
  | ⟨0, _⟩ => show win0_0.index t (0 : Fin 2) * 256 + 1 * p.val = t.val * 256 + p.val; omega
  | ⟨1, _⟩ => show win0_0.index t (1 : Fin 2) * 512 + 1 * k.val = k.val; omega

/-- The second matrix is resident whole. -/
theorem tgtBlk_apply (c : Dev nD) (t : Fin cfg0.N) (j : Fin 4096) (k : Fin 512) :
    tgtBlk m c t (ix2 j k) = tgt m c (ix2 j k) := by
  show V m c main_v8 (((cfg0.win 1).blk t).view.emb (ix2 j k)) = _
  rw [tgtNarrow_eq]
  show tgt m c (((cfg0.win 1).blk t).view.emb (ix2 j k)) = _
  obtain ⟨-, -, e0, e1, -⟩ := idx_facts t
  refine congrArg (tgt m c) (funext fun a => Fin.ext ?_)
  match a with
  | ⟨0, _⟩ => show win0_1.index t (0 : Fin 2) * 4096 + 1 * j.val = j.val; omega
  | ⟨1, _⟩ => show win0_1.index t (1 : Fin 2) * 512 + 1 * k.val = k.val; omega

/-- The tile's entries of the norm column are the norms of rows `256·t + p` of the first matrix. -/
theorem srcNormBlk_apply (c : Dev nD) (t : Fin cfg0.N) (p : Fin 256) (u : Fin 1) :
    srcNormBlk m c t (ix2 p u) = sqNorm (src m c) (row t p) := by
  show V m c main_v2 (((cfg0.win 2).blk t).view.emb (ix2 p u)) = _
  rw [srcNorms_eq]
  obtain ⟨-, -, -, -, e0, e1, -⟩ := idx_facts t
  have hu : u.val = 0 := by omega
  have e : ((cfg0.win 2).blk t).view.emb (ix2 p u) = ix2 (row t p) (0 : Fin 1) := funext fun a => Fin.ext (by
    match a with
    | ⟨0, _⟩ => show win0_2.index t (0 : Fin 2) * 256 + 1 * p.val = t.val * 256 + p.val; omega
    | ⟨1, _⟩ => show win0_2.index t (1 : Fin 2) * 1 + 1 * u.val = 0; omega)
  rw [e]
  exact normColumn_apply (src m c) (row t p) 0

/-- The norm row of the second matrix is resident whole. -/
theorem tgtNormBlk_apply (c : Dev nD) (t : Fin cfg0.N) (u : Fin 1) (j : Fin 4096) :
    tgtNormBlk m c t (ix2 u j) = sqNorm (tgt m c) j := by
  show V m c main_v6 (((cfg0.win 3).blk t).view.emb (ix2 u j)) = _
  rw [tgtNorms_eq]
  obtain ⟨-, -, -, -, -, -, e0, e1, -⟩ := idx_facts t
  have hu : u.val = 0 := by omega
  have e : ((cfg0.win 3).blk t).view.emb (ix2 u j) = ix2 (0 : Fin 1) j := funext fun a => Fin.ext (by
    match a with
    | ⟨0, _⟩ => show win0_3.index t (0 : Fin 2) * 1 + 1 * u.val = 0; omega
    | ⟨1, _⟩ => show win0_3.index t (1 : Fin 2) * 4096 + 1 * j.val = j.val; omega)
  rw [e]
  exact normRow_apply (tgt m c) 0 j

/-- The tile's entries of the label column are the labels of rows `256·t + p`. -/
theorem labColBlk_apply (c : Dev nD) (t : Fin cfg0.N) (p : Fin 256) (u : Fin 1) :
    labColBlk m c t (ix2 p u) = lab m c (ix1 (row t p)) := by
  show V m c main_v9 (((cfg0.win 4).blk t).view.emb (ix2 p u)) = _
  rw [labColumn_eq]
  obtain ⟨-, -, -, -, -, -, -, -, e0, e1, -⟩ := idx_facts t
  have hu : u.val = 0 := by omega
  have e : ((cfg0.win 4).blk t).view.emb (ix2 p u) = ix2 (row t p) (0 : Fin 1) := funext fun a => Fin.ext (by
    match a with
    | ⟨0, _⟩ => show win0_4.index t (0 : Fin 2) * 256 + 1 * p.val = t.val * 256 + p.val; omega
    | ⟨1, _⟩ => show win0_4.index t (1 : Fin 2) * 1 + 1 * u.val = 0; omega)
  rw [e]
  exact Cert.Keepdims.shapeCast_a_a1_apply (lab m c) shapeCasts_S4096_S4096x1 (row t p) 0

/-- The label row is resident whole. -/
theorem labRowBlk_apply (c : Dev nD) (t : Fin cfg0.N) (u : Fin 1) (j : Fin 4096) :
    labRowBlk m c t (ix2 u j) = lab m c (ix1 j) := by
  show V m c main_v10 (((cfg0.win 5).blk t).view.emb (ix2 u j)) = _
  rw [labRow_eq]
  obtain ⟨-, -, -, -, -, -, -, -, -, -, e0, e1, -⟩ := idx_facts t
  have hu : u.val = 0 := by omega
  have e : ((cfg0.win 5).blk t).view.emb (ix2 u j) = ix2 (0 : Fin 1) j := funext fun a => Fin.ext (by
    match a with
    | ⟨0, _⟩ => show win0_5.index t (0 : Fin 2) * 1 + 1 * u.val = 0; omega
    | ⟨1, _⟩ => show win0_5.index t (1 : Fin 2) * 4096 + 1 * j.val = j.val; omega)
  rw [e]
  exact shapeCast_a_1a_apply (lab m c) shapeCasts_S4096_S1x4096 0 j

/-! ## A tile's distances and label tests are the problem's -/

theorem tileDist_eq (c : Dev nD) (t : Fin cfg0.N) (p : Fin 256) (j : Fin 4096) :
    tileDist (srcBlk m c t) (tgtBlk m c t) (srcNormBlk m c t) (tgtNormBlk m c t) p j = dist (src m c) (tgt m c) (row t p) j := by
  unfold tileDist dist inner
  rw [srcNormBlk_apply, tgtNormBlk_apply]
  simp only [srcBlk_apply, tgtBlk_apply]

theorem tileSame_eq (c : Dev nD) (t : Fin cfg0.N) (p : Fin 256) (j : Fin 4096) :
    tileSame (labColBlk m c t) (labRowBlk m c t) p j = same (lab m c) (row t p) j := by
  unfold tileSame same
  rw [labColBlk_apply, labRowBlk_apply]

/-! ## What a point writes back, and the array after the run -/

/-- The column of row losses: entry `(i, 0)` is the hinge loss of row `i`. -/
def lossColumn (c : Dev nD) : S4096x1.Idx → EReal := fun i => rowLoss (src m c) (tgt m c) (lab m c) (i 0)

theorem hz : (![0, 0] : Fin 2 → Nat) = fun _ => 0 := funext fun a => by fin_cases a <;> rfl

/-- Point `t` writes back block `t` of the loss column. -/
theorem flushed_eq (c : Dev nD) (t : Fin cfg0.N) :
    (dats m 0 c).flushed 6 t = ((cfg0.win 6).blk t).view.read (Elt Ideal) (lossColumn m c) := by
  show (cfg0.win 6).cut (grid0.coords t) ((dats m 0 c).after 6 t) = _
  rw [after0_6]
  unfold out0_6
  rw [View.canon_unit_zero hz]
  simp only [View.ld_unit_zero (S := S256x512) hz, View.ld_unit_zero (S := S4096x512) hz, View.ld_unit_zero (S := S256x1) hz,
    View.ld_unit_zero (S := S1x4096) hz]
  funext y
  obtain ⟨p, u, rfl⟩ : ∃ (p : Fin 256) (u : Fin 1), y = ix2 p u := ⟨y 0, y 1, eq_ix2 y⟩
  show k0_pay1 (F := Ideal) (srcBlk m c t) (tgtBlk m c t) (srcNormBlk m c t) (tgtNormBlk m c t) (labColBlk m c t) (labRowBlk m c t) (ix2 p u)
    = lossColumn m c (((cfg0.win 6).blk t).view.emb (ix2 p u))
  refine (pay_row (srcBlk m c t) (tgtBlk m c t) (srcNormBlk m c t) (tgtNormBlk m c t) (labColBlk m c t) (labRowBlk m c t) p u).trans ?_
  obtain ⟨-, -, -, -, -, -, -, -, -, -, -, -, e0, e1⟩ := idx_facts t
  have er : (((cfg0.win 6).blk t).view.emb (ix2 p u)) 0 = row t p := Fin.ext (by
    show win0_6.index t (0 : Fin 2) * 256 + 1 * p.val = t.val * 256 + p.val; omega)
  unfold lossColumn rowLoss hardPos hardNeg
  rw [er]
  simp only [tileDist_eq, tileSame_eq]

/-- An index of the output array is in point `t`'s block iff each coordinate is in the block's range. -/
theorem mem_blk (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v11).slice (win0_6.rect t)).set ↔ _
  rw [View.set_slice_whole, Rect.mem_set_unit]
  exact Iff.rfl

/-- Every row is in the block of the point `row / 256`. -/
theorem cover (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  let t : Fin cfg0.N := ⟨(i 0).val / 256, lt_of_lt_of_eq (by omega) N_0.symm⟩
  refine ⟨t, flush0_6 t, ?_⟩
  rw [mem_blk]
  obtain ⟨-, -, -, -, -, -, -, -, -, -, -, -, e0, e1⟩ := idx_facts t
  have ht : t.val = (i 0).val / 256 := rfl
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1 ≤ (i 1).val ∧ (i 1).val < win0_6.index t (1 : Fin 2) * 1 + 1; omega

/-- After the run the output array is the column of row losses. -/
theorem final (c : Dev nD) : (dats m 0 c).arrAt 6 cfg0.N = lossColumn m c :=
  (dats m 0 c).arrAt_eq_of_cover 6 (lossColumn m c) (fun t _ => flushed_eq m c t) cover

end Cert.HardMining.Blocks

end
-- ==== Proof.Tail.lean ====
/-
  After the region: the host sums the column of row losses over both its axes, from the zero word, and divides by the
  word of 4096. Over the extended reals the sum over the 4096 × 1 index set is the sum over the 4096 rows, so the
  program's one result is the mean loss.
-/
import proofs.«115461_j86887188398250_1_alg».proof.Proof.Blocks
import Idealize.ShloMosaic.Lib.Pipeline.FrameSuffix

set_option maxRecDepth 16384

noncomputable section

namespace Cert.HardMining.Tail

open Idealize.ShloMosaic Idealize.ShloMosaic.TcCoe Idealize.ShloMosaic.ValueIdx Idealize.SL.Sem
open Cert.KernelIdeal Cert.KernelIdeal.Gen Cert.HardMining.Entry Cert.HardMining.Blocks Idealize.ShloMosaic.StableHlo

/-- The sum of a column indexed by `(i, 0)` is the sum over its rows. -/
theorem sum_column (f : Fin 4096 → EReal) : ∑ i : S4096x1.Idx, f (i 0) = ∑ a : Fin 4096, f a := by
  rw [sum_idx2 (fun i : S4096x1.Idx => f (i 0))]
  refine Finset.sum_congr rfl fun a _ => ?_
  rw [Fin.sum_univ_one]

/-- The host tail on a column of row values: total sum from the zero word, divided by the count word. -/
theorem mean_column (f : Fin 4096 → EReal) (i : S_.Idx) :
    Host.divf (Host.reduceAdd (fun y : S4096x1.Idx => f (y 0)) (constant (F := Ideal) S_ .f32 0x00000000#32) reducesTo_S4096x1_S_d0_1 h_S_)
      (constant (F := Ideal) S_ .f32 0x45800000#32) i
      = Ideal.div (zeroW + ∑ a : Fin 4096, f a) countW := by
  show Ideal.div (Host.reduceAdd (fun y : S4096x1.Idx => f (y 0)) (constant (F := Ideal) S_ .f32 0x00000000#32) reducesTo_S4096x1_S_d0_1 h_S_ i) countW = _
  simp only [Host.reduceAdd, Ideal.hostReduceAdd_def]
  rw [Ideal.hostReduceAdd_total reducesTo_S4096x1_S_d0_1 (fun b => b.elim0), sum_column]
  rfl

variable (m : (ℓ : Loc nD τ sig) → Buf (Elt Ideal) ℓ)

/-- The program's result after the host tail is the mean loss of the launched arguments. -/
theorem result_eq (c : Dev nD) :
    Pipeline.afterTail₀ cfgs (dats m) 0 (V0 m) [hostOps1] c main_v13 = fun _ => meanLoss (src m c) (tgt m c) (lab m c) := by
  unfold Pipeline.afterTail₀
  show StableHlo.after hostOps1 _ (Proc.devRef .tc main_v13) = _
  after_results
  rw [(Pipeline.withArrays_arr spec0 launch0.win.arr_inj c _ _ 6).trans (final m c)]
  funext i
  exact mean_column (fun a => rowLoss (src m c) (tgt m c) (lab m c) a) i

end Cert.HardMining.Tail

end
-- ==== Proof.lean ====
/-
  The batch-hard triplet loss kernel against its plain reference.

  Both programs take two 4096 × 512 feature matrices and 4096 integer labels and return one number: the mean over the rows
  `i` of `max (hardPos i − hardNeg i + margin) 0`, where `hardPos i` is the largest clamped squared distance
  `max (‖a_i‖² + ‖b_j‖² − 2⟨a_i, b_j⟩) 0` to a row `j` of the same label and `hardNeg i` the smallest to a row of another
  label (Proof/Spec.lean, `meanLoss`).

  The reference computes it on whole 4096 × 4096 arrays (Proof/RefIsSpec.lean reads its stages one at a time). The kernel
  computes the norms and the label column and row on the host, then runs 16 tiles of 256 rows each against the whole second
  matrix: a tile's inner products are one matrix product into a zero accumulator, its row maximum and minimum two lane
  reductions (Proof/TileRow.lean reads the tile's stored value at a row); the tiles are restrictions of the whole arrays and
  tile the output column (Proof/Blocks.lean, over the host prefix read in Proof/Entry.lean); the host then averages the
  column (Proof/Tail.lean). Over the extended reals a change of float format is the identity, a matrix product and a row
  sum are plain sums, and the maximum and minimum of a row do not depend on the order they are taken in, so the two
  programs are one function of their arguments; no law used needs the inputs finite. The idealized kernel is the printed
  kernel read over the extended reals with no rewrite, so the preservation claim has nothing to state.
-/
import proofs.«115461_j86887188398250_1_alg».proof.Defs
import proofs.«115461_j86887188398250_1_alg».proof.Proof.Gen.Kernel
import proofs.«115461_j86887188398250_1_alg».proof.Proof.Gen.Kernel.Skeleton
import proofs.«115461_j86887188398250_1_alg».proof.Proof.Gen.Kernel.Launch
import proofs.«115461_j86887188398250_1_alg».proof.Proof.Gen.Kernel.Points
import proofs.«115461_j86887188398250_1_alg».proof.Proof.Gen.Kernel.Frame
import proofs.«115461_j86887188398250_1_alg».proof.Proof.Gen.KernelIdeal
import proofs.«115461_j86887188398250_1_alg».proof.Proof.Gen.KernelIdeal.Skeleton
import proofs.«115461_j86887188398250_1_alg».proof.Proof.Gen.KernelIdeal.Launch
import proofs.«115461_j86887188398250_1_alg».proof.Proof.Gen.KernelIdeal.Points
import proofs.«115461_j86887188398250_1_alg».proof.Proof.Gen.KernelIdeal.Frame
import proofs.«115461_j86887188398250_1_alg».proof.Proof.Gen.ReferenceIdeal
import proofs.«115461_j86887188398250_1_alg».proof.Proof.Gen.Pre_finite_inputs
import proofs.«115461_j86887188398250_1_alg».proof.Proof.Gen.ReferenceIdeal.Run
import proofs.«115461_j86887188398250_1_alg».proof.Proof.Gen.ReferenceIdeal.Read
import proofs.«115461_j86887188398250_1_alg».proof.Proof.RefIsSpec
import proofs.«115461_j86887188398250_1_alg».proof.Proof.Tail
import Idealize.ShloMosaic.Adequacy
import Idealize.ShloMosaic.Init

set_option maxRecDepth 16384

noncomputable section

namespace Cert.Proof

open Idealize.ShloMosaic Idealize.ShloMosaic.TcCoe Idealize.SL.Sem

/-! ## The kernel's run, with its result named -/

/-- Every weakly fair execution of the idealized kernel ends with its result at the mean loss of the launched arguments,
    the arguments unchanged: the generated frame run, its output array read through the blocks and the host tail. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v13)
            = (fun _ => Cert.HardMining.meanLoss (Cert.HardMining.Entry.src m c) (Cert.HardMining.Entry.tgt m c) (Cert.HardMining.Entry.lab m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).2 Cert.KernelIdeal.main_v13 (Pipeline.mem_restRefs_of Cert.KernelIdeal.main_v13 (by decide) (by decide))).trans
        (Cert.HardMining.Tail.result_eq m c),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩)
    (Cert.KernelIdeal.Gen.run_main m ρ)

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the mean loss of arguments that agree. -/
theorem algebraic : Cert.algebraic_KernelIdeal_ReferenceIdeal := by
  intro m ρ m' ρ' _ hagree
  refine ⟨fun c => fun _ => Cert.HardMining.meanLoss (Cert.HardMining.Entry.src m c) (Cert.HardMining.Entry.tgt m c) (Cert.HardMining.Entry.lab m c),
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.HardMining.Ref.val_eq_meanLoss, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
